-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S8192 : Shape := ⟨1, ![8192]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16x512x64x64 .f32) (main_arg1 : FVec F S8192 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S16x512x64x64 : Shape := ⟨4, ![16, 512, 64, 64]⟩
abbrev S8192 : Shape := ⟨1, ![8192]⟩
abbrev S8192x64x64 : Shape := ⟨3, ![8192, 64, 64]⟩
abbrev S16x1x512 : Shape := ⟨3, ![16, 1, 512]⟩
abbrev S16x1x128 : Shape := ⟨3, ![16, 1, 128]⟩
abbrev S16x1x1 : Shape := ⟨3, ![16, 1, 1]⟩
abbrev S16 : Shape := ⟨1, ![16]⟩
abbrev S_ : Shape := ⟨0, ![]⟩
abbrev S512x64x64 : Shape := ⟨3, ![512, 64, 64]⟩
abbrev S1x1x512 : Shape := ⟨3, ![1, 1, 512]⟩
abbrev S1x1x128 : Shape := ⟨3, ![1, 1, 128]⟩
abbrev S512x64 : Shape := ⟨2, ![512, 64]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 11
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S8192, .f32⟩
  | .hbm, ⟨2, _⟩ => ⟨S8192x64x64, .f32⟩
  | .hbm, ⟨3, _⟩ => ⟨S16x1x512, .f32⟩
  | .hbm, ⟨4, _⟩ => ⟨S16x1x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x64x64, .f32⟩
  | .local _ .vmem, ⟨1, _⟩ => ⟨S512x64x64, .f32⟩
  | .local _ .vmem, ⟨2, _⟩ => ⟨S1x1x512, .f32⟩
  | .local _ .vmem, ⟨3, _⟩ => ⟨S1x1x512, .f32⟩
  | .local _ .vmem, ⟨4, _⟩ => ⟨S1x1x128, .f32⟩
  | .local _ .vmem, ⟨5, _⟩ => ⟨S1x1x128, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_cst : Ref sig .tc := ⟨.hbm, 7, rfl⟩
abbrev main_call0_v5 : Ref sig .tc := ⟨.hbm, 8, rfl⟩
abbrev main_call0_cst_0 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x512x64x64_S8192x64x64 : S16x512x64x64.ShapeCasts S8192x64x64
  shapeCasts_S8192_S16x1x512 : S8192.ShapeCasts S16x1x512
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  inb_S512x64x64_S512x64x64_0_0_0 : ∀ a, (![0, 0, 0] : Fin 3 → Nat) a + S512x64x64.size a ≤ S512x64x64.size a
  h_S512x64x64 : 0 < S512x64x64.numel
  shapeCasts_S512x64x64_S512x64x64 : S512x64x64.ShapeCasts S512x64x64
  reduces_S512x64x64_S512x64 : S512x64x64.Reduces [1] S512x64
  reduces_S512x64_S512 : S512x64.Reduces [1] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64x64.size a ≤ S8192x64x64.size a
  hwx0_0 : ∀ i : grid0.Coords, EltTy.bits .f32 = 32 ∨ (Rect.block (s := S8192x64x64) S512x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_call0_v0) S512x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S8192 : Shape := ⟨1, ![8192]⟩
abbrev S8192x4096 : Shape := ⟨2, ![8192, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S8192, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  shapeCasts_S16x512x64x64_S8192x4096 : S16x512x64x64.ShapeCasts S8192x4096
  reducesTo_S8192x4096_S8192_d1 : S8192x4096.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.Spec.lean ====
/-
  The style loss as ONE function of the two argument arrays, over the extended reals.

  For a feature array `x : [16, 512, 64, 64]` and a target `tg : [8192]`, row `n = 512·t + r` of the flattened
  `[8192, 4096]` view of `x` has the sum of squares `rowSq x t r = ∑ d, ∑ c, x[t, r, c, d]²`; its scaled value is
  `rowSq · 2⁻²⁵` (there are 2²⁵ elements in all), the deviation from the target is `dev = rowSq · 2⁻²⁵ − tg[n]`, a block
  of 512 rows contributes `part t = ∑ r, dev²`, and the loss is `(0 + ∑ t, part t) / 8192`.

  Two arrangements of the same sums meet here: the sum over the 8192 rows is the double sum over 16 blocks of 512 rows
  (`sum_rows`), and the sum over a row's 4096 entries is the double sum over its 64 × 64 coordinates (`sum_cols`); both
  are re-indexings along a bijection, valid in any commutative additive monoid, so nothing here needs the entries to be
  finite. The one fact about constants: dividing by 2²⁵ is multiplying by 2⁻²⁵ on every extended real (`div_two25`).
-/
import Idealize.ShloMosaic.PureOps.Ideal
import Idealize.ShloMosaic.PureOps.Ideal.Laws
import Idealize.ShloMosaic.Lib.ValueIdx

noncomputable section

open scoped BigOperators

namespace Cert.StyleLoss

open Idealize.ShloMosaic Idealize.ShloMosaic.ValueIdx

/-! ## Rows and columns of the flattened view -/

/-- Row `512·t + r` of the `[8192, 4096]` view: row `r` of block `t`. -/
def row (t : Fin 16) (r : Fin 512) : Fin 8192 := ⟨t.val * 512 + r.val, by omega⟩

/-- Entry `64·c + d` of a row of the `[8192, 4096]` view: coordinates `(c, d)` of the `64 × 64` trailing axes. -/
def col (c : Fin 64) (d : Fin 64) : Fin 4096 := ⟨c.val * 64 + d.val, by omega⟩

/-- The 8192 rows are the 16 blocks of 512 rows. -/
def rowEquiv : Fin 16 × Fin 512 ≃ Fin 8192 where
  toFun p := row p.1 p.2
  invFun n := (⟨n.val / 512, by omega⟩, ⟨n.val % 512, by omega⟩)
  left_inv p := by
    obtain ⟨t, r⟩ := p
    refine Prod.ext (Fin.ext ?_) (Fin.ext ?_)
    · show (t.val * 512 + r.val) / 512 = t.val; omega
    · show (t.val * 512 + r.val) % 512 = r.val; omega
  right_inv n := Fin.ext (by show n.val / 512 * 512 + n.val % 512 = n.val; omega)

/-- The 4096 entries of a row are the `64 × 64` coordinates. -/
def colEquiv : Fin 64 × Fin 64 ≃ Fin 4096 where
  toFun p := col p.1 p.2
  invFun k := (⟨k.val / 64, by omega⟩, ⟨k.val % 64, by omega⟩)
  left_inv p := by
    obtain ⟨c, d⟩ := p
    refine Prod.ext (Fin.ext ?_) (Fin.ext ?_)
    · show (c.val * 64 + d.val) / 64 = c.val; omega
    · show (c.val * 64 + d.val) % 64 = d.val; omega
  right_inv k := Fin.ext (by show k.val / 64 * 64 + k.val % 64 = k.val; omega)

/-- A sum over the rows is the sum over the blocks of the sums over a block's rows. -/
theorem sum_rows {M : Type*} [AddCommMonoid M] (f : Fin 8192 → M) :
    ∑ n, f n = ∑ t : Fin 16, ∑ r : Fin 512, f (row t r) := by
  rw [← Equiv.sum_comp rowEquiv f, Fintype.sum_prod_type]
  rfl

/-- A sum over a row's entries is the sum over the last coordinate of the sums over the one before it. -/
theorem sum_cols {M : Type*} [AddCommMonoid M] (f : Fin 4096 → M) :
    ∑ k, f k = ∑ d : Fin 64, ∑ c : Fin 64, f (col c d) := by
  rw [← Equiv.sum_comp colEquiv f, Fintype.sum_prod_type, Finset.sum_comm]
  rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := fun a => ix1 a, left_inv := fun j => (eq_ix1 j).symm, right_inv := fun _ => rfl }
  rw [← Equiv.sum_comp e.symm f]
  rfl

/-! ## The two powers of two -/

/-- The word `0x4C000000` denotes `2²⁵ = 33554432`. -/
theorem ofBits_two25 : Ideal.ofBits .f32 0x4C000000#32 = ((33554432 : ℝ) : EReal) := by
  simp [Ideal.ofBits, Ideal.ieee, -EReal.coe_mul]; norm_num

/-- The word `0x33000000` denotes `2⁻²⁵ = 1 / 33554432`. -/
theorem ofBits_inv_two25 : Ideal.ofBits .f32 0x33000000#32 = ((1 / 33554432 : ℝ) : EReal) := by
  simp [Ideal.ofBits, Ideal.ieee, -EReal.coe_mul]; norm_num

/-- Dividing by `2²⁵` is multiplying by `2⁻²⁵`, on every extended real. -/
theorem div_two25 (s : EReal) :
    Ideal.div s (Ideal.ofBits .f32 0x4C000000#32) = s * Ideal.ofBits .f32 0x33000000#32 := by
  rw [ofBits_two25, ofBits_inv_two25]
  exact Ideal.div_coe (by norm_num) s

/-! ## The loss -/

/-- The sum of the squares of row `512·t + r`. -/
def rowSq (x : (⟨4, ![16, 512, 64, 64]⟩ : Shape).Idx → EReal) (t : Fin 16) (r : Fin 512) : EReal :=
  ∑ d : Fin 64, ∑ c : Fin 64, x (ix4 t r c d) * x (ix4 t r c d)

/-- The row's scaled sum of squares less its target. -/
def dev (x : (⟨4, ![16, 512, 64, 64]⟩ : Shape).Idx → EReal) (tg : (⟨1, ![8192]⟩ : Shape).Idx → EReal)
    (t : Fin 16) (r : Fin 512) : EReal :=
  rowSq x t r * Ideal.ofBits .f32 0x33000000#32 - tg (ix1 (row t r))

/-- Block `t`'s share of the squared error: the sum over its 512 rows. -/
def part (x : (⟨4, ![16, 512, 64, 64]⟩ : Shape).Idx → EReal) (tg : (⟨1, ![8192]⟩ : Shape).Idx → EReal)
    (t : Fin 16) : EReal :=
  ∑ r : Fin 512, dev x tg t r * dev x tg t r

/-- The mean squared error over the 8192 rows. -/
def loss (x : (⟨4, ![16, 512, 64, 64]⟩ : Shape).Idx → EReal) (tg : (⟨1, ![8192]⟩ : Shape).Idx → EReal) : EReal :=
  Ideal.div (Ideal.ofBits .f32 0x00000000#32 + ∑ t : Fin 16, part x tg t) (Ideal.ofBits .f32 0x46000000#32)

end Cert.StyleLoss

end
-- ==== Proof.RefValue.lean ====
/-
  The reference computes the loss of the specification.

  The reference flattens the features to `[8192, 4096]`, squares, sums each row, divides by `2²⁵`, subtracts the target,
  squares, sums the 8192 rows from zero and divides by 8192. Row `n = 512·t + r`, entry `k = 64·c + d` of the flattened
  view is the feature at `(t, r, c, d)` (`idx_eq`: both sit at the same row-major position), so a row's sum is the
  double sum over its `64 × 64` coordinates and the sum over the rows is the double sum over blocks and rows; the
  division by `2²⁵` is the product with `2⁻²⁵`, and the zero a sum starts from adds nothing.
-/
import proofs.«135322_g13640816132828_feedfinal_596_4_alg».proof.Proof.Gen.ReferenceIdeal.Read
import proofs.«135322_g13640816132828_feedfinal_596_4_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read
open Cert.StyleLoss

/-- Entry `64·c + d` of row `512·t + r` of the flattened view is the feature at `(t, r, c, d)`. -/
theorem idx_eq (t : Fin 16) (r : Fin 512) (c d : Fin 64) :
    idx_main_v0 (idx_main_v2 (ix1 (row t r)) (col c d)) = ix4 t r c d := by
  funext a
  match a with
  | ⟨0, _⟩ =>
    refine Fin.ext ?_
    show ((t.val * 512 + r.val) * 4096 + (c.val * 64 + d.val)) / 2097152 = t.val
    omega
  | ⟨1, _⟩ =>
    refine Fin.ext ?_
    show ((t.val * 512 + r.val) * 4096 + (c.val * 64 + d.val)) / 4096 % 512 = r.val
    omega
  | ⟨2, _⟩ =>
    refine Fin.ext ?_
    show ((t.val * 512 + r.val) * 4096 + (c.val * 64 + d.val)) / 64 % 64 = c.val
    omega
  | ⟨3, _⟩ =>
    refine Fin.ext ?_
    show ((t.val * 512 + r.val) * 4096 + (c.val * 64 + d.val)) % 64 = d.val
    omega

/-- The reference's deviation at row `512·t + r` is the specification's. -/
theorem v5_apply (x : (⟨S16x512x64x64, .f32⟩ : BufTy).Contents (Elt Ideal)) (tg : (⟨S8192, .f32⟩ : BufTy).Contents (Elt Ideal))
    (t : Fin 16) (r : Fin 512) : val_main_v5 (F := Ideal) x tg (ix1 (row t r)) = dev x tg t r := by
  rw [val_main_v5_apply, val_main_v4_apply, val_main_v2_apply, val_main_v3_apply, val_main_cst_0_apply, val_main_cst_apply]
  simp only [Ideal.subf_def, Ideal.hostDivf_def, Ideal.ofBits_def, Ideal.ofBits_zero_f32, zero_add, div_two25]
  unfold dev rowSq
  rw [sum_cols]
  refine congrArg (fun s => s * Ideal.ofBits .f32 0x33000000#32 - tg (ix1 (row t r))) ?_
  refine Finset.sum_congr rfl fun d _ => Finset.sum_congr rfl fun c _ => ?_
  rw [val_main_v1_apply, val_main_v0_apply, idx_eq]
  rfl

/-- THE REFERENCE'S RESULT is the loss. -/
theorem ref_eq (x : (⟨S16x512x64x64, .f32⟩ : BufTy).Contents (Elt Ideal)) (tg : (⟨S8192, .f32⟩ : BufTy).Contents (Elt Ideal)) :
    val_main_v8 (F := Ideal) x tg = fun _ => loss x tg := by
  funext i
  have hs : ∑ j : S8192.Idx, val_main_v6 (F := Ideal) x tg j = ∑ t : Fin 16, part x tg t := by
    rw [sum_idx1, sum_rows]
    refine Finset.sum_congr rfl fun t _ => Finset.sum_congr rfl fun r _ => ?_
    rw [val_main_v6_apply, v5_apply]
    rfl
  rw [val_main_v8_apply, val_main_v7_apply, val_main_cst_2_apply, val_main_cst_1_apply, hs]
  rfl

end Cert.ReferenceIdeal.RefValue

end
-- ==== Proof.LibLayoutCols.lean ====
/-
  General lemmas, for any extents: the column forms of the layout operations read at coordinates.

  * A vector [a] viewed as a column [a, 1], and a column viewed as a vector: entry `i` either way.
  * A column [a, 1] spread over [a, b]: row `p`'s one entry at every column.
  * A trailing unit axis dropped from [a, b, 1] or added to [a, b]: the entry at (p, q) either way.
  * A unit-stride cut of a matrix along its columns that keeps ONE column `o`: the entry at (i, o).
  * A kernel's f32 sum along the rows into the zero word, with the accumulator's evidence spelt as a kernel prints it
    (`0 = 0`): row p's sum over the columns.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibLayoutCols

open Idealize.ShloMosaic Idealize.ShloMosaic.ValueIdx
open scoped BigOperators

variable {α : Type}

/-- A vector viewed as a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column viewed as a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column spread over the columns reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A trailing unit axis dropped: the entry at (p, q) is the operand's at (p, q, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- A trailing unit axis added: the entry at (p, q, u) is the operand's at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    omega)

/-- One column `o` cut out of a matrix: the entry at (i, 0) of the cut is the matrix's at (i, o). -/
theorem slice_col_apply {n0 n1 : ℕ} (o : ℕ) (X : (⟨2, ![n0, n1]⟩ : Shape).Idx → α)
    (h : (⟨2, ![n0, n1]⟩ : Shape).Slices ![0, o] ⟨2, ![n0, 1]⟩) (i : Fin n0) (k : Fin n1) (hk : k.val = o) :
    extractStridedSlice ⟨2, ![n0, 1]⟩ ![0, o] X h (ix2 i (0 : Fin 1)) = X (ix2 i k) :=
  slice2_axis1_apply o X h i (0 : Fin 1) k (by show k.val = o + 0; omega)

/-- An f32 sum along the rows into the zero word, the accumulator's evidence the printed `0 = 0`, at row p. -/
theorem rowsum_f32_apply {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (p : Fin A) :
    multiReduction .add [1] ⟨1, ![A]⟩ src 0x00000000#32 h hφ hacc (ix1 p) = ∑ k : Fin B, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

end Cert.LibLayoutCols

end
-- ==== Proof.KernelPayload.lean ====
/-
  What the kernel body computes from one pair of blocks, at the ideal values.

  At a grid point the body holds a block `xb : [512, 64, 64]` of the features (512 rows of the flattened view, each a
  `64 × 64` tile) and a block `tb : [1, 1, 512]` of the targets. It squares the features, sums the squares over the
  middle axis and then over the last one — so row `r` gets `∑ d, ∑ c, xb[r, c, d]²` —, scales by `2⁻²⁵`, subtracts the
  row's target `tb[0, 0, r]`, squares the difference, sums over the 512 rows, and writes that one number to all 128
  lanes of its output block. Read at any lane the payload is therefore `∑ r, blkDev r · blkDev r`.
-/
import proofs.«135322_g13640816132828_feedfinal_596_4_alg».proof.Proof.Gen.KernelIdeal.Skeleton
import proofs.«135322_g13640816132828_feedfinal_596_4_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.LibLayoutCols

/-! ## Two layout facts, for any extents -/

/-- A `[1, 1, a]` array viewed as a vector `[a]` reads, at `i`, the array at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An f32 sum of a rank-3 vector along its MIDDLE axis into the zero word: entry `(p, q)` is the sum over `k` of the
    entries `(p, k, q)`. -/
theorem midsum_f32_apply {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (p : Fin A) (q : Fin C) :
    multiReduction .add [1] ⟨2, ![A, C]⟩ src 0x00000000#32 h hφ hacc (ix2 p q) = ∑ k : Fin B, src (ix3 p k q) :=
  (Ideal.multiReduction_add_single src 0x00000000#32 h hφ hacc (ix2 p q)).trans
    (Finset.sum_congr rfl fun k _ => congrArg src (funext fun a => Fin.ext (by
      match a with
      | ⟨0, _⟩ => rfl
      | ⟨1, _⟩ => rfl
      | ⟨2, _⟩ => rfl)))

/-! ## The body's intermediate vectors -/

/-- The block's squares. -/
abbrev sq (xb : Vec Ideal S512x64x64 .f32) : FVec Ideal S512x64x64 .f32 :=
  mulf (shapeCast S512x64x64 xb shapeCasts_S512x64x64_S512x64x64) (shapeCast S512x64x64 xb shapeCasts_S512x64x64_S512x64x64)

/-- Each row's sum of squares: over the middle axis, then over the last. -/
abbrev rs (xb : Vec Ideal S512x64x64 .f32) : FVec Ideal S512 .f32 :=
  multiReduction .add [1] S512
    (multiReduction .add [1] S512x64 (sq xb) 0x00000000#32 reduces_S512x64x64_S512x64 (.inl rfl) rfl)
    0x00000000#32 reduces_S512x64_S512 (.inl rfl) rfl

/-- Each row's scaled sum of squares less its target. -/
abbrev dv (xb : Vec Ideal S512x64x64 .f32) (tb : Vec Ideal S1x1x512 .f32) : FVec Ideal S512 .f32 :=
  subf (mulf (rs xb) (broadcast S512 (Scalar.ofBits .f32 0x33000000#32))) (shapeCast S512 tb shapeCasts_S1x1x512_S512)

/-! ## Their values -/

/-- Row `r`'s sum of squares over its `64 × 64` tile. -/
def blkRowSq (xb : Vec Ideal S512x64x64 .f32) (r : Fin 512) : EReal :=
  ∑ d : Fin 64, ∑ c : Fin 64, xb (ix3 r c d) * xb (ix3 r c d)

/-- Row `r`'s scaled sum of squares less its target. -/
def blkDev (xb : Vec Ideal S512x64x64 .f32) (tb : Vec Ideal S1x1x512 .f32) (r : Fin 512) : EReal :=
  blkRowSq xb r * Ideal.ofBits .f32 0x33000000#32 - tb (ix3 (0 : Fin 1) (0 : Fin 1) r)

theorem rs_apply (xb : Vec Ideal S512x64x64 .f32) (r : Fin 512) : rs xb (ix1 r) = blkRowSq xb r := by
  refine (rowsum_f32_apply _ reduces_S512x64_S512 (.inl rfl) rfl r).trans ?_
  unfold blkRowSq
  refine Finset.sum_congr rfl fun d _ => ?_
  refine (midsum_f32_apply _ reduces_S512x64x64_S512x64 (.inl rfl) rfl r d).trans ?_
  refine Finset.sum_congr rfl fun c _ => ?_
  show shapeCast S512x64x64 xb shapeCasts_S512x64x64_S512x64x64 (ix3 r c d)
      * shapeCast S512x64x64 xb shapeCasts_S512x64x64_S512x64x64 (ix3 r c d) = _
  rw [shapeCast_self]

theorem dv_apply (xb : Vec Ideal S512x64x64 .f32) (tb : Vec Ideal S1x1x512 .f32) (r : Fin 512) :
    dv xb tb (ix1 r) = blkDev xb tb r := by
  show rs xb (ix1 r) * Ideal.ofBits .f32 0x33000000#32 - shapeCast S512 tb shapeCasts_S1x1x512_S512 (ix1 r) = _
  rw [rs_apply, shapeCast_11a_a_apply]
  rfl

/-- THE PAYLOAD: every lane of the output block holds the block's sum of squared deviations. -/
theorem pay_eq (xb : Vec Ideal S512x64x64 .f32) (tb : Vec Ideal S1x1x512 .f32) (y : S1x1x128.Idx) :
    k0_pay1 (F := Ideal) xb tb y = ∑ r : Fin 512, blkDev xb tb r * blkDev xb tb r := by
  show shapeCast S1x1
      (multiReduction .add [1] S1 (shapeCast S1x512 (mulf (dv xb tb) (dv xb tb)) shapeCasts_S512_S1x512)
        0x00000000#32 reduces_S1x512_S1 (.inl rfl) rfl)
      shapeCasts_S1_S1x1 (fun a => ⟨![0, 0] a, inpos_S1x1_p0_0 a⟩) = _
  refine (shapeCast_apply _ shapeCasts_S1_S1x1 _ (ix1 (0 : Fin 1)) (by
    rw [Shape.rowMajor_val_one, Shape.rowMajor_val_two]; rfl)).trans ?_
  refine (rowsum_f32_apply _ reduces_S1x512_S1 (.inl rfl) rfl (0 : Fin 1)).trans ?_
  refine Finset.sum_congr rfl fun r _ => ?_
  refine (shapeCast_a_1a_apply _ shapeCasts_S512_S1x512 (0 : Fin 1) r).trans ?_
  show dv xb tb (ix1 r) * dv xb tb (ix1 r) = _
  rw [dv_apply]

end Cert.KernelIdeal.Payload

end
-- ==== Proof.KernelBlocks.lean ====
/-
  From the kernel's blocks to its whole output array.

  The region finds the features flattened to `[8192, 64, 64]` and the targets laid out as `[16, 1, 512]` (two reshapes
  of the arguments, which keep every entry at its row-major position). Grid point `t` stages rows `512·t … 512·t + 511`
  of the features and row `t` of the targets, so the feature block's entry `(r, c, d)` is the argument at `(t, r, c, d)`
  and the target block's entry `(0, 0, r)` is the target of row `512·t + r`. The body therefore leaves the block's share
  `part t` of the squared error in every lane of its `[1, 1, 128]` output block, which is row `t` of the `[16, 1, 128]`
  output array; the 16 points' blocks are the 16 rows, so after the run the array holds `part (i 0)` at every index `i`.
-/
import proofs.«135322_g13640816132828_feedfinal_596_4_alg».proof.Proof.Gen.KernelIdeal.Frame
import proofs.«135322_g13640816132828_feedfinal_596_4_alg».proof.Proof.Spec
import proofs.«135322_g13640816132828_feedfinal_596_4_alg».proof.Proof.KernelPayload
import Idealize.ShloMosaic.Lib.Pipeline.Value
import Idealize.ShloMosaic.Lib.StableHlo.Run

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload Cert.StyleLoss

variable (m : (ℓ : Loc nD τ sig) → Buf (Elt Ideal) ℓ)

/-- The feature argument on core `c`. -/
abbrev xarr (c : Dev nD) : S16x512x64x64.Idx → EReal := m ((c : Thread nD τ).loc main_arg0)
/-- The target argument on core `c`. -/
abbrev tarr (c : Dev nD) : S8192.Idx → EReal := m ((c : Thread nD τ).loc main_arg1)

theorem hz3 : (![0, 0, 0] : Fin 3 → Nat) = fun _ => 0 := funext fun a => by fin_cases a <;> rfl

/-! ## The arrays as the region finds them -/

/-- The features, flattened. -/
theorem V_feat (c : Dev nD) : (V m c main_call0_v0 : S8192x64x64.Idx → EReal)
    = shapeCast S8192x64x64 (xarr m c) shapeCasts_S16x512x64x64_S8192x64x64 := by
  show StableHlo.after hostOps0 (fun b => m (c, b)) (Proc.devRef .tc main_call0_v0) = _
  after_results
  rfl

/-- The targets, one row per grid point. -/
theorem V_tgt (c : Dev nD) : (V m c main_call0_v1 : S16x1x512.Idx → EReal)
    = shapeCast S16x1x512 (tarr m c) shapeCasts_S8192_S16x1x512 := by
  show StableHlo.after hostOps0 (fun b => m (c, b)) (Proc.devRef .tc main_call0_v1) = _
  after_results
  rfl

/-! ## The index maps, decided over the grid -/

/-- Every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ t.val < 16 :=
  (by decide +kernel : ∀ t : Fin grid0.N, _)

/-- Every row of the output array is some point's. -/
theorem idx_onto : ∀ q : Fin 16, ∃ t : Fin cfg0.N, t.val = q.val :=
  (by decide +kernel : ∀ q : Fin 16, ∃ t : Fin grid0.N, t.val = q.val)

/-! ## The input blocks at coordinates -/

/-- The feature block at point `t`, entry `(r, c, d)`: the argument at `(t, r, c, d)`. -/
theorem feat_blk (c : Dev nD) (t : Fin cfg0.N) (t' : Fin 16) (ht : t'.val = t.val) (r : Fin 512) (cc d : Fin 64) :
    iblk m c 0 t (ix3 r cc d) = xarr m c (ix4 t' r cc d) := by
  obtain ⟨e0, e1, e2, -⟩ := idx_facts t
  show V m c main_call0_v0 (((cfg0.win 0).blk t).view.emb (ix3 r cc d)) = _
  rw [V_feat]
  refine shapeCast_apply _ _ _ (ix4 t' r cc d) ?_
  rw [Shape.rowMajor_val_four, Shape.rowMajor_val_three]
  show ((t'.val * 512 + r.val) * 64 + cc.val) * 64 + d.val
    = ((win0_0.index t (0 : Fin 3) * 512 + 1 * r.val) * 64 + (win0_0.index t (1 : Fin 3) * 64 + 1 * cc.val)) * 64
      + (win0_0.index t (2 : Fin 3) * 64 + 1 * d.val)
  omega

/-- The target block at point `t`, entry `(0, 0, r)`: the target of row `512·t + r`. -/
theorem tgt_blk (c : Dev nD) (t : Fin cfg0.N) (t' : Fin 16) (ht : t'.val = t.val) (r : Fin 512) :
    iblk m c 1 t (ix3 (0 : Fin 1) (0 : Fin 1) r) = tarr m c (ix1 (row t' r)) := by
  obtain ⟨-, -, -, e0, e1, e2, -⟩ := idx_facts t
  show V m c main_call0_v1 (((cfg0.win 1).blk t).view.emb (ix3 (0 : Fin 1) (0 : Fin 1) r)) = _
  rw [V_tgt]
  refine shapeCast_apply _ _ _ (ix1 (row t' r)) ?_
  rw [Shape.rowMajor_val_one, Shape.rowMajor_val_three]
  show t'.val * 512 + r.val
    = ((win0_1.index t (0 : Fin 3) * 1 + 1 * 0) * 1 + (win0_1.index t (1 : Fin 3) * 1 + 1 * 0)) * 512
      + (win0_1.index t (2 : Fin 3) * 512 + 1 * r.val)
  omega

/-! ## What a point writes back, and the whole array -/

/-- The output array after the run: row `i 0` holds that block's share of the squared error, in every lane. -/
def G (c : Dev nD) : S16x1x128.Idx → EReal := fun i => part (xarr m c) (tarr m c) (i 0)

/-- WHAT POINT `t` WRITES BACK is block `t` of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz3]
  simp only [View.ld_unit_zero (S := S512x64x64) hz3, View.ld_unit_zero (S := S1x1x512) hz3]
  obtain ⟨-, -, -, -, -, -, e0, e1, e2, hlt⟩ := idx_facts t
  funext j
  show k0_pay1 (F := Ideal) (iblk m c 0 t) (iblk m c 1 t) j = G m c (((cfg0.win 2).blk t).view.emb j)
  refine (pay_eq (iblk m c 0 t) (iblk m c 1 t) j).trans ?_
  have hrow : ((cfg0.win 2).blk t).view.emb j (0 : Fin 3) = (⟨t.val, hlt⟩ : Fin 16) := by
    apply Fin.ext
    show win0_2.index t (0 : Fin 3) * 1 + 1 * (j 0).val = t.val
    have hj : (j 0).val < 1 := (j 0).isLt
    omega
  unfold G part
  rw [hrow]
  refine Finset.sum_congr rfl fun r _ => ?_
  have hd : blkDev (iblk m c 0 t) (iblk m c 1 t) r = dev (xarr m c) (tarr m c) ⟨t.val, hlt⟩ r := by
    unfold blkDev blkRowSq dev rowSq
    rw [tgt_blk m c t ⟨t.val, hlt⟩ rfl r]
    refine congrArg (fun s => s * Ideal.ofBits .f32 0x33000000#32 - tarr m c (ix1 (row ⟨t.val, hlt⟩ r))) ?_
    refine Finset.sum_congr rfl fun d _ => Finset.sum_congr rfl fun cc _ => ?_
    rw [feat_blk m c t ⟨t.val, hlt⟩ rfl r cc d]
  rw [hd]

/-- An index of the output array is in point `t`'s block iff each coordinate is in the block's range on its axis. -/
theorem mem_blk (t : Fin cfg0.N) (i : S16x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_call0_v2).slice (win0_2.rect t)).set ↔ _
  rw [View.set_slice_whole, Rect.mem_set_unit]
  exact Iff.rfl

/-- The 16 points' blocks are the 16 rows: every index is in the block of the point of its row. -/
theorem cover (i : S16x1x128.Idx) :
    ∃ t : Fin cfg0.N, (cfg0.win 2).flush t = true ∧ i ∈ ((cfg0.win 2).blk t).view.set := by
  have hi1 : (i 1).val < 1 := (i 1).isLt
  have hi2 : (i 2).val < 128 := (i 2).isLt
  obtain ⟨t, ht⟩ := idx_onto (i 0)
  obtain ⟨-, -, -, -, -, -, e0, e1, e2, -⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE OUTPUT ARRAY after the run is `G`. -/
theorem final (c : Dev nD) : (dats m 0 c).arrAt 2 cfg0.N = G m c :=
  (dats m 0 c).arrAt_eq_of_cover 2 (G m c) (fun t _ => flushed_eq m c t) cover

end Cert.KernelIdeal.Blocks

end
-- ==== Proof.KernelValue.lean ====
/-
  The kernel's result: the host lines after the region, and the run.

  After the region the program keeps lane 0 of each of the 16 rows of the `[16, 1, 128]` output array, sums the 16
  numbers from zero and divides by 8192. Row `a` of the array holds `part a` in every lane, so the result is
  `(0 + ∑ a, part a) / 8192`: the loss.
-/
import proofs.«135322_g13640816132828_feedfinal_596_4_alg».proof.Proof.KernelBlocks
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.RunValue

open Idealize.ShloMosaic Idealize.ShloMosaic.TcCoe Idealize.ShloMosaic.ValueIdx Idealize.SL.Sem
open Cert.KernelIdeal Cert.KernelIdeal.Gen Cert.KernelIdeal.Blocks Cert.StyleLoss

variable (m : (ℓ : Loc nD τ sig) → Buf (Elt Ideal) ℓ) (ρ : Dev nD → PrngReg)

/-! ## The lines after the region -/

/-- The lines after the region, as one function of the output array: lane 0 of every row, summed from zero, over 8192. -/
def tail (A : FVec Ideal S16x1x128 .f32) : FVec Ideal S_ .f32 :=
  Host.divf
    (Host.reduceAdd
      (shapeCast S16 (extractStridedSlice S16x1x1 ![0, 0, 0] A slices_S16x1x128_S16x1x1_0_0_0) shapeCasts_S16x1x1_S16)
      (constant (F := Ideal) S_ .f32 0x00000000#32) reducesTo_S16_S_d0 h_S_)
    (constant (F := Ideal) S_ .f32 0x46000000#32)

/-- The host's sum of a `[16]` vector into a scalar: the initial value plus the sum of the entries. -/
theorem reduce16 (y : FVec Ideal S16 .f32) (v : FVec Ideal S_ .f32) (i : S_.Idx) :
    Host.reduceAdd (F := Ideal) y v reducesTo_S16_S_d0 h_S_ i = v (Shape.Idx.first h_S_) + ∑ j : S16.Idx, y j := by
  simp only [Host.reduceAdd, Ideal.hostReduceAdd_def]
  exact Ideal.hostReduceAdd_total reducesTo_S16_S_d0 (fun b => b.elim0) y _ i

/-- Of the array `G` the tail is the loss. -/
theorem tail_G (c : Dev nD) : tail (G m c) = fun _ => loss (xarr m c) (tarr m c) := by
  funext i
  unfold tail
  show Ideal.div (Host.reduceAdd (F := Ideal) _ _ reducesTo_S16_S_d0 h_S_ i) (Ideal.ofBits .f32 0x46000000#32) = _
  rw [reduce16, sum_idx1]
  unfold loss
  refine congrArg (fun s => Ideal.div (Ideal.ofBits .f32 0x00000000#32 + s) (Ideal.ofBits .f32 0x46000000#32)) ?_
  refine Finset.sum_congr rfl fun a _ => ?_
  refine (shapeCast_apply _ shapeCasts_S16x1x1_S16 (ix1 a) (ix3 a (0 : Fin 1) (0 : Fin 1)) (by
    rw [Shape.rowMajor_val_three, Shape.rowMajor_val_one]
    show (a.val * 1 + 0) * 1 + 0 = a.val
    omega)).trans ?_
  refine (extractStridedSlice_apply _ _ slices_S16x1x128_S16x1x1_0_0_0 (ix3 a (0 : Fin 1) (0 : Fin 1))
    (ix3 a (0 : Fin 1) (0 : Fin 128)) (fun ax => by
      match ax with
      | ⟨0, _⟩ => show a.val = 0 + a.val; omega
      | ⟨1, _⟩ => rfl
      | ⟨2, _⟩ => rfl)).trans ?_
  rfl

/-- The program's result buffer after the lines that follow the region. -/
theorem tail_eq (c : Dev nD) :
    Pipeline.afterTail₀ cfgs (dats m) 0 (V0 m) [hostOps1] c main_v0 = fun _ => loss (xarr m c) (tarr m c) := by
  have hA : Pipeline.withArrays spec0 c (V0 m c) (fun w => (dats m 0 c).arrAt w cfg0.N) (Proc.devRef .tc main_call0_v2)
      = G m c :=
    (Pipeline.withArrays_arr spec0 launch0.win.arr_inj c _ _ 2).trans (final m c)
  have h1 : Pipeline.afterTail₀ cfgs (dats m) 0 (V0 m) [hostOps1] c main_v0
      = tail (Pipeline.withArrays spec0 c (V0 m c) (fun w => (dats m 0 c).arrAt w cfg0.N) (Proc.devRef .tc main_call0_v2)) := by
    unfold Pipeline.afterTail₀
    show StableHlo.after hostOps1 _ (Proc.devRef .tc main_v0) = _
    after_results
    rfl
  exact (h1.trans (congrArg tail hA)).trans (tail_G m c)

/-! ## The run -/

/-- Every weakly fair execution of the program terminates with the loss of its arguments in its result buffer and the
    arguments unchanged. -/
theorem run : θ_run defs (onTc (τ := τ) (main (F := Ideal))) ⟨m, fun _ => 0, ρ⟩ fun r => ∀ c : Dev nD,
      r.2.mem ((c.tc : Thread nD τ).loc main_v0) = (fun _ => loss (xarr m c) (tarr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.lean ====
/-
  A style loss on the diagonal of a Gram matrix: the kernel against its reference, over the extended reals.

  For features `x : [16, 512, 64, 64]` and targets `tg : [8192]`, both programs compute
  `(0 + ∑ over the 8192 rows n of (rowSq n · 2⁻²⁵ − tg n)²) / 8192`, where `rowSq n` is the sum of the squares of the
  4096 entries of row `n` of the flattened `[8192, 4096]` view of `x`.

  The reference sums each row in one pass and divides by `2²⁵`; the kernel walks 16 blocks of 512 rows, sums each row's
  `64 × 64` tile over one axis and then the other, multiplies by `2⁻²⁵`, and leaves each block's share of the squared
  error in a `[16, 1, 128]` array whose lane 0 the host then sums. The two differ only in how the sums are grouped —
  a re-indexing along a bijection, valid for any extended reals — and in dividing by `2²⁵` against multiplying by `2⁻²⁵`,
  which agree on every extended real. So the finiteness of the inputs is never used.

  The three frames are the generated ones (the reference's is its generated run with the result dropped); the idealized
  kernel is the kernel's own text read at the ideal values, so there is nothing to preserve.
-/
import proofs.«135322_g13640816132828_feedfinal_596_4_alg».proof.Defs
import proofs.«135322_g13640816132828_feedfinal_596_4_alg».proof.Proof.Gen.Kernel
import proofs.«135322_g13640816132828_feedfinal_596_4_alg».proof.Proof.Gen.Kernel.Skeleton
import proofs.«135322_g13640816132828_feedfinal_596_4_alg».proof.Proof.Gen.Kernel.Launch
import proofs.«135322_g13640816132828_feedfinal_596_4_alg».proof.Proof.Gen.Kernel.Points
import proofs.«135322_g13640816132828_feedfinal_596_4_alg».proof.Proof.Gen.Kernel.Frame
import proofs.«135322_g13640816132828_feedfinal_596_4_alg».proof.Proof.Gen.KernelIdeal
import proofs.«135322_g13640816132828_feedfinal_596_4_alg».proof.Proof.Gen.KernelIdeal.Skeleton
import proofs.«135322_g13640816132828_feedfinal_596_4_alg».proof.Proof.Gen.KernelIdeal.Launch
import proofs.«135322_g13640816132828_feedfinal_596_4_alg».proof.Proof.Gen.KernelIdeal.Points
import proofs.«135322_g13640816132828_feedfinal_596_4_alg».proof.Proof.Gen.KernelIdeal.Frame
import proofs.«135322_g13640816132828_feedfinal_596_4_alg».proof.Proof.Gen.ReferenceIdeal
import proofs.«135322_g13640816132828_feedfinal_596_4_alg».proof.Proof.Gen.Pre_finite_inputs
import proofs.«135322_g13640816132828_feedfinal_596_4_alg».proof.Proof.Gen.ReferenceIdeal.Run
import proofs.«135322_g13640816132828_feedfinal_596_4_alg».proof.Proof.Gen.ReferenceIdeal.Read
import proofs.«135322_g13640816132828_feedfinal_596_4_alg».proof.Proof.RefValue
import proofs.«135322_g13640816132828_feedfinal_596_4_alg».proof.Proof.KernelValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both runs end with the loss of the (agreeing) arguments in their result buffers. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
